-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 67
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x64, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibDistribNonnegFactor.lean ====
/-
  GENERAL LEMMAS on the extended reals (no program is imported): a product distributes over a finite sum when the
  common factor is a non-negative real (`sum_mul_coe_of_nonneg`, `contract_scale`), and a base of at least one, finite
  or infinite, raised to the word -1/2 by the exact `pow` is a non-negative real (`pow_neg_half_nonneg`; the words
  0xBF000000 = -1/2 and 0x3F800000 = 1 decoded once). Here they are the one algebraic law of a graph convolution
  and the one fact about its degree scale:

  A graph-convolution layer scales each node's row by s = (max(1, degree))^(-1/2). One program contracts the
  row with the weight matrix first and scales the result, the other scales the row first and contracts
  afterwards:  (∑ₖ aₖ · wₖ) · s   against   ∑ₖ (aₖ · s) · wₖ.
  On the extended reals a product distributes over a sum when the common factor is a non-negative real
  (the infinities are what break distributivity, and they are excluded for the FACTOR only: the terms may
  be anything). The scale is such a factor whatever the degree is: a base of at least 1 raised to -1/2 is
  a real in [0, 1], and an infinite base gives 0.
-/
import Idealize.ShloMosaic.PureOps.Ideal
import Idealize.ShloMosaic.PureOps.Ideal.Laws

noncomputable section

open scoped BigOperators

namespace Cert.GraphConv

open Idealize.ShloMosaic

/-- A finite sum of extended reals times a non-negative real is the sum of the products. -/
theorem sum_mul_coe_of_nonneg {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Contract, then scale by a non-negative real = scale the left factors, then contract. -/
theorem contract_scale {K : ℕ} (a w : Fin K → EReal) {r : ℝ} (hr : 0 ≤ r) :
    (∑ k : Fin K, a k * w k) * (r : EReal) = ∑ k : Fin K, (a k * (r : EReal)) * w k := by
  rw [sum_mul_coe_of_nonneg _ _ hr]
  exact Finset.sum_congr rfl fun k _ => by rw [mul_assoc, mul_comm (w k), ← mul_assoc]

/-- The word 0xBF000000 is the real -1/2. -/
theorem ofBits_neg_half : Ideal.ofBits .f32 0xBF000000#32 = ((-(1 / 2) : ℝ) : EReal) := by
  simp [Ideal.ofBits, Ideal.ieee]
  first
    | (rw [← EReal.coe_mul]; norm_num)
    | (norm_cast; norm_num)

/-- The word 0x3F800000 is the real 1. -/
theorem ofBits_one : Ideal.ofBits .f32 0x3F800000#32 = (1 : EReal) := by
  simp [Ideal.ofBits, Ideal.ieee]
  first
    | (rw [← EReal.coe_mul]; norm_num)
    | (norm_cast; norm_num)

/-- A base of at least one, finite or not, raised to -1/2 is a non-negative real. -/
theorem pow_neg_half_nonneg (x : EReal) (hx : 1 ≤ x) :
    ∃ r : ℝ, 0 ≤ r ∧ Ideal.pow x (Ideal.ofBits .f32 0xBF000000#32) = (r : EReal) := by
  rw [ofBits_neg_half]
  induction x using EReal.rec with
  | bot => exact absurd (le_bot_iff.mp hx) (by rw [← EReal.coe_one]; exact EReal.coe_ne_bot 1)
  | top =>
    refine ⟨0, le_rfl, ?_⟩
    show (if (0 : EReal) < ((-(1 / 2) : ℝ) : EReal) then (⊤ : EReal)
      else if ((-(1 / 2) : ℝ) : EReal) = 0 then 1 else 0) = ((0 : ℝ) : EReal)
    rw [if_neg (by rw [EReal.coe_pos]; norm_num), if_neg (by rw [EReal.coe_eq_zero]; norm_num)]
    rfl
  | coe a =>
    have ha : (1 : ℝ) ≤ a := by exact_mod_cast hx
    exact ⟨Real.rpow a (-(1 / 2)), Real.rpow_nonneg (zero_le_one.trans ha) _, rfl⟩

end Cert.GraphConv

end
-- ==== Proof.Spec.lean ====
/-
  What both programs compute, as functions of the argument arrays, and why the two are equal.

  A two-layer graph convolution over 50000 nodes and 800000 edges. Shared by both programs, operation for
  operation: the degree scale  d(idx) = (max(1, #{e : idx e = node}))^(-1/2)  as a column, once over the
  sources and once over the destinations, and the aggregation
      agg(h) = scatter-add over dst of the rows (h · d(src))[src]
  (a gather of scaled rows followed by a scatter-add into zeros). These are carried as two named functions
  and never opened: the certificate needs nothing of a gather or a scatter beyond their being the same
  function on both sides.
  A layer then maps A = agg(h) to
      kernel:     (A · W) scaled row-wise by d(dst), plus the bias row        (contract first, scale after)
      reference:  (A scaled row-wise by d(dst)) · W, plus the bias            (scale first, contract after)
  and layer one ends in max(·, 0). The two agree entry by entry because d(dst) is a non-negative real
  at every node (LibDistribNonnegFactor.lean), whatever A and W hold.
-/
import proofs.«109816_j66271345377540_1_alg».proof.KernelIdeal
import proofs.«109816_j66271345377540_1_alg».proof.ReferenceIdeal
import proofs.«109816_j66271345377540_1_alg».proof.Proof.Gen.KernelIdeal
import proofs.«109816_j66271345377540_1_alg».proof.Proof.Gen.ReferenceIdeal
import proofs.«109816_j66271345377540_1_alg».proof.Proof.LibDistribNonnegFactor
import proofs.«109816_j66271345377540_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.GraphConv

open Idealize.ShloMosaic Idealize.ShloMosaic.ValueIdx

/-! ## The shared pieces, in the kernel program's vocabulary -/

section Shared
open Cert.KernelIdeal Cert.KernelIdeal.Facts₀

variable {F : FTy → Type} [FloatOps F]

/-- The degree scale as a column: per node, (max(1, number of entries of `idx` equal to the node))^(-1/2). -/
def degScale (idx : IVec S800000 32) : FVec F S50000x1 .f32 :=
  broadcastInDim S50000x1 ![0] bcast_S50000_S50000x1_0 (Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32)))) (broadcastInDim S50000 ![] bcast_S_S50000 (constant S_ .f32 0xBF000000#32)))

/-- The aggregation: rows of `h` scaled by the column `os`, gathered along the edges' sources (a negative
    source read from the end), and added into zeros at the edges' destinations. -/
def aggregate (h : FVec F S50000x128 .f32) (os : FVec F S50000x1 .f32) (src dst : IVec S800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 os)) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-! ## A layer as the kernel computes it, entry by entry (at the exact instance) -/

/-- Layer one, kernel order: contract row `p` of `A` with column `q` of `W`, scale by the node's entry of the
    column `s`, add the bias row's entry, clamp below at zero. -/
def kerLayer1 (A : FVec Ideal S50000x128 .f32) (s : FVec Ideal S50000x1 .f32) (W : FVec Ideal S128x128 .f32) (b : FVec Ideal S1x128 .f32) :
    FVec Ideal S50000x128 .f32 := fun i =>
  max ((∑ k : Fin 128, A (ix2 (⟨(i 0).val, (i 0).isLt⟩ : Fin 50000) k) * W (ix2 k (⟨(i 1).val, (i 1).isLt⟩ : Fin 128)))
      * s (ix2 (⟨(i 0).val, (i 0).isLt⟩ : Fin 50000) (0 : Fin 1))
      + b (ix2 (0 : Fin 1) (⟨(i 1).val, (i 1).isLt⟩ : Fin 128)))
    (Ideal.ofBits .f32 0x00000000#32)

/-- Layer two, kernel order: the same without the clamp, into 64 columns. -/
def kerLayer2 (A : FVec Ideal S50000x128 .f32) (s : FVec Ideal S50000x1 .f32) (W : FVec Ideal S128x64 .f32) (b : FVec Ideal S1x64 .f32) :
    FVec Ideal S50000x64 .f32 := fun i =>
  (∑ k : Fin 128, A (ix2 (⟨(i 0).val, (i 0).isLt⟩ : Fin 50000) k) * W (ix2 k (⟨(i 1).val, (i 1).isLt⟩ : Fin 64)))
      * s (ix2 (⟨(i 0).val, (i 0).isLt⟩ : Fin 50000) (0 : Fin 1))
      + b (ix2 (0 : Fin 1) (⟨(i 1).val, (i 1).isLt⟩ : Fin 64))

/-- The kernel program's result: two layers, each over the aggregation of the layer before. `b1r`, `b2r` are the
    biases as 1×n rows. -/
def kerOut (x : FVec Ideal S50000x128 .f32) (W1 : FVec Ideal S128x128 .f32) (b1r : FVec Ideal S1x128 .f32)
    (W2 : FVec Ideal S128x64 .f32) (b2r : FVec Ideal S1x64 .f32) (src dst : IVec S800000 32) : FVec Ideal S50000x64 .f32 :=
  kerLayer2 (aggregate (kerLayer1 (aggregate x (degScale src) src dst) (degScale dst) W1 b1r) (degScale src) src dst) (degScale dst) W2 b2r

end Shared

/-! ## The reference's term, in the reference program's vocabulary -/

section Reference
open Cert.ReferenceIdeal Cert.ReferenceIdeal.Facts₀

variable {F : FTy → Type} [FloatOps F]

/-- The degree scale, spelt over the reference program's shape records. -/
def degScaleR (idx : IVec S800000 32) : FVec F S50000x1 .f32 :=
  broadcastInDim S50000x1 ![0] bcast_S50000_S50000x1_0 (Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32)))) (broadcastInDim S50000 ![] bcast_S_S50000 (constant S_ .f32 0xBF000000#32)))

/-- The aggregation, spelt over the reference program's shape records. -/
def aggregateR (h : FVec F S50000x128 .f32) (os : FVec F S50000x1 .f32) (src dst : IVec S800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 os)) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- Layer one, reference order: scale the rows, contract, add the broadcast bias, clamp below at zero. -/
def refLayer1 (A : FVec F S50000x128 .f32) (s : FVec F S50000x1 .f32) (W : FVec F S128x128 .f32) (b : FVec F S128 .f32) : FVec F S50000x128 .f32 :=
  maximumf (addf (Host.dotGeneral dot_S50000x128_S128x128_S50000x128_1_0_0_1_n_n none (mulf A (broadcastInDim S50000x128 ![0, 1] bcast_S50000x1_S50000x128_0_1 s)) W) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Layer two, reference order: the same without the clamp, into 64 columns. -/
def refLayer2 (A : FVec F S50000x128 .f32) (s : FVec F S50000x1 .f32) (W : FVec F S128x64 .f32) (b : FVec F S64 .f32) : FVec F S50000x64 .f32 :=
  addf (Host.dotGeneral dot_S50000x128_S128x64_S50000x64_1_0_0_1_n_n none (mulf A (broadcastInDim S50000x128 ![0, 1] bcast_S50000x1_S50000x128_0_1 s)) W) (broadcastInDim S50000x64 ![0, 1] bcast_S1x64_S50000x64_0_1 (broadcastInDim S1x64 ![1] bcast_S64_S1x64_1 b))

/-- The reference program's result. -/
def refOut (x : FVec F S50000x128 .f32) (W1 : FVec F S128x128 .f32) (b1 : FVec F S128 .f32) (W2 : FVec F S128x64 .f32) (b2 : FVec F S64 .f32)
    (src dst : IVec S800000 32) : FVec F S50000x64 .f32 :=
  refLayer2 (aggregateR (refLayer1 (aggregateR x (degScaleR src) src dst) (degScaleR dst) W1 b1) (degScaleR src) src dst) (degScaleR dst) W2 b2

/-- The two spellings of the degree scale are one function (the shape records agree field by field). -/
theorem degScaleR_eq (idx : IVec S800000 32) : degScaleR (F := F) idx = degScale (F := F) idx := rfl

/-- The two spellings of the aggregation are one function. -/
theorem aggregateR_eq (h : FVec F S50000x128 .f32) (os : FVec F S50000x1 .f32) (src dst : IVec S800000 32) :
    aggregateR (F := F) h os src dst = aggregate (F := F) h os src dst := rfl

end Reference

/-! ## The reference's layers read at an index

Each operation of a reference layer is read at one index `i = (p, q)`: the contraction is the sum over the 128
shared positions of row `p` of the left operand against column `q` of the right; the scale column broadcast along
the columns gives the node's entry; the bias vector broadcast to a row and then down the rows gives the column's
entry; the broadcast zero gives zero. Together: layer one at `(p, q)` is
`max (∑ₖ (A (p, k) · s p) · W (k, q) + b q) 0`, layer two the same without the `max`. -/

section ReferenceAt
open Cert.ReferenceIdeal Cert.ReferenceIdeal.Facts₀

/-- The contraction of layer one at an index: row of the left operand against column of the right. -/
theorem refDot1_apply (L : FVec Ideal S50000x128 .f32) (W : FVec Ideal S128x128 .f32) (i : S50000x128.Idx) :
    Host.dotGeneral (F := Ideal) dot_S50000x128_S128x128_S50000x128_1_0_0_1_n_n none L W i
      = ∑ k : Fin 128, L (ix2 (⟨(i 0).val, (i 0).isLt⟩ : Fin 50000) k) * W (ix2 k (⟨(i 1).val, (i 1).isLt⟩ : Fin 128)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k)
      = ix2 (⟨(i 0).val, (i 0).isLt⟩ : Fin 50000) k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : dot_S50000x128_S128x128_S50000x128_1_0_0_1_n_n.rhsIdx i ((ValueIdx.contrEquiv1 dot_S50000x128_S128x128_S50000x128_1_0_0_1_n_n 128 rfl rfl).symm k)
      = ix2 k (⟨(i 1).val, (i 1).isLt⟩ : Fin 128) := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-- The contraction of layer two at an index: row of the left operand against column of the right. -/
theorem refDot2_apply (L : FVec Ideal S50000x128 .f32) (W : FVec Ideal S128x64 .f32) (i : S50000x64.Idx) :
    Host.dotGeneral (F := Ideal) dot_S50000x128_S128x64_S50000x64_1_0_0_1_n_n none L W i
      = ∑ k : Fin 128, L (ix2 (⟨(i 0).val, (i 0).isLt⟩ : Fin 50000) k) * W (ix2 k (⟨(i 1).val, (i 1).isLt⟩ : Fin 64)) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k)
      = ix2 (⟨(i 0).val, (i 0).isLt⟩ : Fin 50000) k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : dot_S50000x128_S128x64_S50000x64_1_0_0_1_n_n.rhsIdx i ((ValueIdx.contrEquiv1 dot_S50000x128_S128x64_S50000x64_1_0_0_1_n_n 128 rfl rfl).symm k)
      = ix2 k (⟨(i 1).val, (i 1).isLt⟩ : Fin 64) := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The scale column broadcast along the 128 columns, read at (p, k): the node's entry. -/
theorem refScale_apply (s : FVec Ideal S50000x1 .f32) (p : Fin 50000) (k : Fin 128) :
    broadcastInDim S50000x128 ![0, 1] bcast_S50000x1_S50000x128_0_1 s (ix2 p k) = s (ix2 p (0 : Fin 1)) :=
  broadcastInDim_apply _ bcast_S50000x1_S50000x128_0_1 s (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])

/-- The 128-entry bias vector broadcast to a row and then down the rows, read at an index: the column's entry. -/
theorem refBias1_apply (b : FVec Ideal S128 .f32) (i : S50000x128.Idx) :
    broadcastInDim S50000x128 ![0, 1] bcast_S1x128_S50000x128_0_1 (broadcastInDim S1x128 ![1] bcast_S128_S1x128_1 b) i
      = b (ix1 (⟨(i 1).val, (i 1).isLt⟩ : Fin 128)) := by
  rw [broadcastInDim_apply _ bcast_S1x128_S50000x128_0_1 _ i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ _ (fun a => match a with
    | ⟨0, _⟩ => by show (i 1).val = if (128 : Nat) = 1 then 0 else (i 1).val; rw [if_neg (by decide)])

/-- The 64-entry bias vector broadcast to a row and then down the rows, read at an index: the column's entry. -/
theorem refBias2_apply (b : FVec Ideal S64 .f32) (i : S50000x64.Idx) :
    broadcastInDim S50000x64 ![0, 1] bcast_S1x64_S50000x64_0_1 (broadcastInDim S1x64 ![1] bcast_S64_S1x64_1 b) i
      = b (ix1 (⟨(i 1).val, (i 1).isLt⟩ : Fin 64)) := by
  rw [broadcastInDim_apply _ bcast_S1x64_S50000x64_0_1 _ i (ix2 (0 : Fin 1) (⟨(i 1).val, (i 1).isLt⟩ : Fin 64)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b _ _ (fun a => match a with
    | ⟨0, _⟩ => by show (i 1).val = if (64 : Nat) = 1 then 0 else (i 1).val; rw [if_neg (by decide)])

/-- The zero constant broadcast to every entry. -/
theorem refZero_apply (i : S50000x128.Idx) :
    broadcastInDim S50000x128 ![] bcast_S_S50000x128 (constant (F := Ideal) S_ .f32 0x00000000#32) i
      = Ideal.ofBits .f32 0x00000000#32 := by
  rw [broadcastInDim_apply _ bcast_S_S50000x128 _ i ix0 (fun a => a.elim0)]
  rfl

/-- Layer one in the reference's order, at an index. -/
theorem refLayer1_apply (A : FVec Ideal S50000x128 .f32) (s : FVec Ideal S50000x1 .f32) (W : FVec Ideal S128x128 .f32)
    (b : FVec Ideal S128 .f32) (i : S50000x128.Idx) :
    refLayer1 (F := Ideal) A s W b i
      = max ((∑ k : Fin 128, (A (ix2 (⟨(i 0).val, (i 0).isLt⟩ : Fin 50000) k) * s (ix2 (⟨(i 0).val, (i 0).isLt⟩ : Fin 50000) (0 : Fin 1)))
                * W (ix2 k (⟨(i 1).val, (i 1).isLt⟩ : Fin 128)))
              + b (ix1 (⟨(i 1).val, (i 1).isLt⟩ : Fin 128)))
          (Ideal.ofBits .f32 0x00000000#32) := by
  unfold refLayer1
  have e1 : ∀ (x y : FVec Ideal S50000x128 .f32) (j : S50000x128.Idx),
      maximumf x y j = FloatOps.maximumf (x j) (y j) := fun _ _ _ => rfl
  have e2 : ∀ (x y : FVec Ideal S50000x128 .f32) (j : S50000x128.Idx),
      addf x y j = FloatOps.addf (x j) (y j) := fun _ _ _ => rfl
  have e3 : ∀ (x y : FVec Ideal S50000x128 .f32) (j : S50000x128.Idx),
      mulf x y j = FloatOps.mulf (x j) (y j) := fun _ _ _ => rfl
  rw [e1, e2, Ideal.maximumf_def, Ideal.addf_def, refDot1_apply, refBias1_apply, refZero_apply]
  refine congrArg (fun t => max (t + _) _) (Finset.sum_congr rfl fun k _ => ?_)
  rw [e3, Ideal.mulf_def, refScale_apply]

/-- Layer two in the reference's order, at an index. -/
theorem refLayer2_apply (A : FVec Ideal S50000x128 .f32) (s : FVec Ideal S50000x1 .f32) (W : FVec Ideal S128x64 .f32)
    (b : FVec Ideal S64 .f32) (i : S50000x64.Idx) :
    refLayer2 (F := Ideal) A s W b i
      = (∑ k : Fin 128, (A (ix2 (⟨(i 0).val, (i 0).isLt⟩ : Fin 50000) k) * s (ix2 (⟨(i 0).val, (i 0).isLt⟩ : Fin 50000) (0 : Fin 1)))
                * W (ix2 k (⟨(i 1).val, (i 1).isLt⟩ : Fin 64)))
              + b (ix1 (⟨(i 1).val, (i 1).isLt⟩ : Fin 64)) := by
  unfold refLayer2
  have e2 : ∀ (x y : FVec Ideal S50000x64 .f32) (j : S50000x64.Idx),
      addf x y j = FloatOps.addf (x j) (y j) := fun _ _ _ => rfl
  have e3 : ∀ (x y : FVec Ideal S50000x128 .f32) (j : S50000x128.Idx),
      mulf x y j = FloatOps.mulf (x j) (y j) := fun _ _ _ => rfl
  rw [e2, Ideal.addf_def, refDot2_apply, refBias2_apply]
  refine congrArg (fun t => t + _) (Finset.sum_congr rfl fun k _ => ?_)
  rw [e3, Ideal.mulf_def, refScale_apply]

end ReferenceAt

/-! ## The interface theorems -/

section Bridge
open Cert.KernelIdeal

/-- The degree scale is a non-negative real at every node. -/
theorem degScale_nonneg (idx : IVec S800000 32) (p : Fin 50000) :
    ∃ r : ℝ, 0 ≤ r ∧ degScale (F := Ideal) idx (ix2 p (0 : Fin 1)) = (r : EReal) := by
  unfold degScale
  -- the count of the entries equal to each node: nothing of it is needed beyond its being some vector
  generalize Host.scatterAdd (F := Ideal) scatter_S50000_S800000x1_S800000_n_0_0_1 _ _ _ = d
  -- the column [50000] → [50000, 1] at (p, 0) is the vector at p; a broadcast scalar at p is the scalar
  have hy : ∀ y : FVec Ideal S50000 .f32,
      broadcastInDim S50000x1 ![0] Facts₀.bcast_S50000_S50000x1_0 y (ix2 p (0 : Fin 1)) = y (ix1 p) := fun y =>
    broadcastInDim_apply _ Facts₀.bcast_S50000_S50000x1_0 y (ix2 p (0 : Fin 1)) (ix1 p) (fun a => match a with
      | ⟨0, _⟩ => by show p.val = if (50000 : Nat) = 1 then 0 else p.val; rw [if_neg (by decide)])
  have hc : ∀ c : FVec Ideal S_ .f32, broadcastInDim S50000 ![] Facts₀.bcast_S_S50000 c (ix1 p) = c ix0 := fun c =>
    broadcastInDim_apply _ Facts₀.bcast_S_S50000 c (ix1 p) ix0 (fun a => a.elim0)
  -- the power and the maximum are entry by entry
  have e1 : ∀ (x y : FVec Ideal S50000 .f32) (i : S50000.Idx),
      Host.powf x y i = FloatOps.hostPowf (x i) (y i) := fun _ _ _ => rfl
  have e2 : ∀ (x y : FVec Ideal S50000 .f32) (i : S50000.Idx),
      maximumf x y i = FloatOps.maximumf (x i) (y i) := fun _ _ _ => rfl
  have e3 : ∀ b : BitVec 32, constant (F := Ideal) S_ .f32 b ix0 = Ideal.ofBits .f32 b := fun _ => rfl
  -- so the entry is (max 1 (d p)) ^ (-1/2), a base of at least one
  rw [hy, e1, e2, Ideal.hostPowf_def, Ideal.maximumf_def, hc, hc, id_eq, e3, e3, ofBits_one]
  exact pow_neg_half_nonneg _ (le_max_left _ _)

/-- LAYER ONE: contract-then-scale is scale-then-contract when the scale is a non-negative real at every node; the
    bias row `br` holds the bias vector `b`. -/
theorem layer1_eq (A : FVec Ideal S50000x128 .f32) (s : FVec Ideal S50000x1 .f32) (W : FVec Ideal S128x128 .f32)
    (br : FVec Ideal S1x128 .f32) (b : FVec Ideal S128 .f32)
    (hs : ∀ p : Fin 50000, ∃ r : ℝ, 0 ≤ r ∧ s (ix2 p (0 : Fin 1)) = (r : EReal))
    (hb : ∀ q : Fin 128, br (ix2 (0 : Fin 1) q) = b (ix1 q)) :
    kerLayer1 A s W br = refLayer1 (F := Ideal) A s W b := by
  funext i
  obtain ⟨r, hr, hsr⟩ := hs ⟨(i 0).val, (i 0).isLt⟩
  rw [refLayer1_apply]
  unfold kerLayer1
  -- the node's scale is the non-negative real r: it moves inside the sum onto the left factors
  rw [hsr, contract_scale (fun k => A (ix2 (⟨(i 0).val, (i 0).isLt⟩ : Fin 50000) k))
    (fun k => W (ix2 k (⟨(i 1).val, (i 1).isLt⟩ : Fin 128))) hr, hb]

/-- LAYER TWO: the same, into 64 columns and without the clamp. -/
theorem layer2_eq (A : FVec Ideal S50000x128 .f32) (s : FVec Ideal S50000x1 .f32) (W : FVec Ideal S128x64 .f32)
    (br : FVec Ideal S1x64 .f32) (b : FVec Ideal S64 .f32)
    (hs : ∀ p : Fin 50000, ∃ r : ℝ, 0 ≤ r ∧ s (ix2 p (0 : Fin 1)) = (r : EReal))
    (hb : ∀ q : Fin 64, br (ix2 (0 : Fin 1) q) = b (ix1 q)) :
    kerLayer2 A s W br = refLayer2 (F := Ideal) A s W b := by
  funext i
  obtain ⟨r, hr, hsr⟩ := hs ⟨(i 0).val, (i 0).isLt⟩
  rw [refLayer2_apply]
  unfold kerLayer2
  -- the node's scale is the non-negative real r: it moves inside the sum onto the left factors
  rw [hsr, contract_scale (fun k => A (ix2 (⟨(i 0).val, (i 0).isLt⟩ : Fin 50000) k))
    (fun k => W (ix2 k (⟨(i 1).val, (i 1).isLt⟩ : Fin 64))) hr, hb]

/-- THE TWO PROGRAMS' RESULTS ARE ONE FUNCTION of the arguments. -/
theorem out_eq (x : FVec Ideal S50000x128 .f32) (W1 : FVec Ideal S128x128 .f32) (b1r : FVec Ideal S1x128 .f32) (b1 : FVec Ideal S128 .f32)
    (W2 : FVec Ideal S128x64 .f32) (b2r : FVec Ideal S1x64 .f32) (b2 : FVec Ideal S64 .f32) (src dst : IVec S800000 32)
    (hb1 : ∀ q : Fin 128, b1r (ix2 (0 : Fin 1) q) = b1 (ix1 q)) (hb2 : ∀ q : Fin 64, b2r (ix2 (0 : Fin 1) q) = b2 (ix1 q)) :
    kerOut x W1 b1r W2 b2r src dst = refOut (F := Ideal) x W1 b1 W2 b2 src dst := by
  unfold kerOut refOut
  rw [degScaleR_eq, degScaleR_eq, aggregateR_eq, aggregateR_eq,
    ← layer1_eq _ _ W1 b1r b1 (degScale_nonneg dst) hb1, ← layer2_eq _ _ W2 b2r b2 (degScale_nonneg dst) hb2]

end Bridge

end Cert.GraphConv

end
-- ==== Proof.Region0.lean ====
/-
  Region 0 (layer one), read as values: whatever the TensorCore's buffers hold when the region is entered, the
  region's output array ends holding layer one in the kernel's order — contract each row of the aggregated array
  with the weights, scale by the node's entry of the scale column, add the bias row, clamp below at zero — of
  the four arrays its input windows stage. Ten grid points, point t writing rows 5000·t … 5000·t + 4999.
-/
import proofs.«109816_j66271345377540_1_alg».proof.Proof.Gen.KernelIdeal.Frame
import proofs.«109816_j66271345377540_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.GraphConv

/-! ## The block's payload at an entry -/

/-- The contraction's left operand index, row coordinate: the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The contraction's left operand index, column coordinate: the contracted coordinate. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The contraction's right operand index, row coordinate: the contracted coordinate. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The contraction's right operand index, column coordinate: the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into zeros at an entry: row `p` of the left block against column `q` of the right. -/
theorem matmul_at (l : FVec Ideal S5000x128 .bf16) (r : FVec Ideal S128x128 .bf16) (p : Fin 5000) (q : Fin 128) :
    (matmul (F := Ideal) dot_S5000x128_S128x128_S5000x128_1_0_0_1_n_n none l r (constant S5000x128 .f32 0x00000000#32)) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The [5000,1] column broadcast along the 128 columns, at an entry: the column's entry of the row. -/
theorem colBroadcast_at (v : FVec Ideal S5000x1 .f32) (p : Fin 5000) (q : Fin 128) :
    (broadcastTo S5000x128 v Facts₀.broadcasts_S5000x1_S5000x128) (ix2 p q) = v (ix2 p (0 : Fin 1)) :=
  broadcastTo_apply v Facts₀.broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The [1,128] row broadcast down the 5000 rows, at an entry: the row's entry of the column. -/
theorem rowBroadcast_at (v : FVec Ideal S1x128 .f32) (p : Fin 5000) (q : Fin 128) :
    (broadcastTo S5000x128 v Facts₀.broadcasts_S1x128_S5000x128) (ix2 p q) = v (ix2 (0 : Fin 1) q) :=
  broadcastTo_apply v Facts₀.broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE PAYLOAD AT AN ENTRY: contract row `p` of the first block with column `q` of the weights, scale by the
    column block's entry of row `p`, add the bias row's entry of column `q`, clamp below at zero. -/
theorem pay_at (x0 : Vec Ideal S5000x128 .f32) (x3 : Vec Ideal S128x128 .f32) (x6 : Vec Ideal S5000x1 .f32) (x10 : Vec Ideal S1x128 .f32)
    (p : Fin 5000) (q : Fin 128) :
    (k0_pay1 (F := Ideal) x0 x3 x6 x10) (ix2 p q)
      = max ((∑ k : Fin 128, x0 (ix2 p k) * x3 (ix2 k q)) * x6 (ix2 p (0 : Fin 1)) + x10 (ix2 (0 : Fin 1) q)) (Ideal.ofBits .f32 0x00000000#32) := by
  unfold k0_pay1
  simp only [shapeCast_self]
  show max ((matmul (F := Ideal) dot_S5000x128_S128x128_S5000x128_1_0_0_1_n_n none (truncf .bf16 x0 _) (truncf .bf16 x3 _) (constant S5000x128 .f32 0x00000000#32)) (ix2 p q)
      * (broadcastTo S5000x128 x6 _) (ix2 p q) + (broadcastTo S5000x128 x10 _) (ix2 p q)) (Ideal.ofBits .f32 0x00000000#32) = _
  rw [matmul_at, colBroadcast_at, rowBroadcast_at]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows (the aggregated array, the scale column,
    the output) sit at block row `t`, block column 0; the weights and the bias row are one block each. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at a point and the four arrays they are read from, at their literal types. -/
abbrev blkA (c : Dev nD) (t : Fin cfg0.N) : Vec Ideal S5000x128 .f32 := iblk0 V c 0 t
abbrev blkS (c : Dev nD) (t : Fin cfg0.N) : Vec Ideal S5000x1 .f32 := iblk0 V c 1 t
abbrev blkW (c : Dev nD) (t : Fin cfg0.N) : Vec Ideal S128x128 .f32 := iblk0 V c 2 t
abbrev blkB (c : Dev nD) (t : Fin cfg0.N) : Vec Ideal S1x128 .f32 := iblk0 V c 3 t
abbrev arrA (c : Dev nD) : FVec Ideal S50000x128 .f32 := V c main_v26
abbrev arrS (c : Dev nD) : FVec Ideal S50000x1 .f32 := V c main_v14
abbrev arrW (c : Dev nD) : FVec Ideal S128x128 .f32 := V c main_arg1
abbrev arrB (c : Dev nD) : FVec Ideal S1x128 .f32 := V c main_v27

/-- Row `p` of point `t`'s block of the aggregated array is row `5000·t + p` of the array. -/
theorem blkA_at (c : Dev nD) (t : Fin cfg0.N) (p : Fin 5000) (k : Fin 128) (r : Fin 50000) (hr : r.val = t.val * 5000 + p.val) :
    blkA V c t (ix2 p k) = arrA V c (ix2 r k) := by
  obtain ⟨e0, e1, -⟩ := idx_facts t
  show V c main_v26 (((cfg0.win 0).blk t).view.emb (ix2 p k)) = V c main_v26 (ix2 r k)
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row `p` of point `t`'s block of the scale column is row `5000·t + p` of the column. -/
theorem blkS_at (c : Dev nD) (t : Fin cfg0.N) (p : Fin 5000) (r : Fin 50000) (hr : r.val = t.val * 5000 + p.val) :
    blkS V c t (ix2 p (0 : Fin 1)) = arrS V c (ix2 r (0 : Fin 1)) := by
  obtain ⟨-, -, e0, e1, -⟩ := idx_facts t
  show V c main_v14 (((cfg0.win 1).blk t).view.emb (ix2 p (0 : Fin 1))) = V c main_v14 (ix2 r (0 : Fin 1))
  congr 1
  funext a; apply Fin.ext
  match a with
  | ⟨0, _⟩ => show win0_1.index t (0 : Fin 2) * 5000 + 1 * p.val = r.val; omega
  | ⟨1, _⟩ => show win0_1.index t (1 : Fin 2) * 1 + 1 * 0 = 0; omega

/-- The weights' one block is the weights. -/
theorem blkW_at (c : Dev nD) (t : Fin cfg0.N) (k : Fin 128) (q : Fin 128) :
    blkW V c t (ix2 k q) = arrW V c (ix2 k q) := by
  obtain ⟨-, -, -, -, e0, e1, -⟩ := idx_facts t
  show V c main_arg1 (((cfg0.win 2).blk t).view.emb (ix2 k q)) = V c main_arg1 (ix2 k q)
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias row's one block is the bias row. -/
theorem blkB_at (c : Dev nD) (t : Fin cfg0.N) (q : Fin 128) :
    blkB V c t (ix2 (0 : Fin 1) q) = arrB V c (ix2 (0 : Fin 1) q) := by
  obtain ⟨-, -, -, -, -, -, e0, e1, -⟩ := idx_facts t
  show V c main_v27 (((cfg0.win 3).blk t).view.emb (ix2 (0 : Fin 1) q)) = V c main_v27 (ix2 (0 : Fin 1) q)
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- Layer one at an entry whose coordinates are `r` and `q`. -/
theorem kerLayer1_at (A : FVec Ideal S50000x128 .f32) (s : FVec Ideal S50000x1 .f32) (W : FVec Ideal S128x128 .f32) (b : FVec Ideal S1x128 .f32)
    (i : S50000x128.Idx) (r : Fin 50000) (q : Fin 128) (h0 : (i 0).val = r.val) (h1 : (i 1).val = q.val) :
    kerLayer1 A s W b i = max ((∑ k : Fin 128, A (ix2 r k) * W (ix2 k q)) * s (ix2 r (0 : Fin 1)) + b (ix2 (0 : Fin 1) q)) (Ideal.ofBits .f32 0x00000000#32) := by
  obtain rfl : i = ix2 r q := funext fun a => Fin.ext (match a with | ⟨0, _⟩ => h0 | ⟨1, _⟩ => h1)
  rfl

/-- WHAT POINT `t` WRITES BACK is block `t` of layer one of the four arrays as the region finds them. -/
theorem flushed_eq (c : Dev nD) (t : Fin cfg0.N) :
    (dat0 V c).flushed 4 t = ((cfg0.win 4).blk t).view.read (Elt Ideal) (kerLayer1 (V c main_v26) (V c main_v14) (V c main_arg1) (V c main_v27)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, e0, e1⟩ := idx_facts t
  show k0_pay1 (F := Ideal) (blkA V c t) (blkW V c t) (blkS V c t) (blkB V c t) (ix2 p q)
    = kerLayer1 (arrA V c) (arrS V c) (arrW V c) (arrB V c) (((cfg0.win 4).blk t).view.emb (ix2 p q))
  have h0 : ((((cfg0.win 4).blk t).view.emb (ix2 p q)) 0).val = t.val * 5000 + p.val := by
    show win0_4.index t (0 : Fin 2) * 5000 + 1 * p.val = _; omega
  have h1 : ((((cfg0.win 4).blk t).view.emb (ix2 p q)) 1).val = q.val := by
    show win0_4.index t (1 : Fin 2) * 128 + 1 * q.val = _; omega
  have hN : cfg0.N = 10 := N_0
  have hr : t.val * 5000 + p.val < 50000 := by have := t.isLt; have := p.isLt; omega
  refine (pay_at _ _ _ _ p q).trans ?_
  refine Eq.trans ?_ (kerLayer1_at (arrA V c) (arrS V c) (arrW V c) (arrB V c) _ ⟨t.val * 5000 + p.val, hr⟩ q h0 h1).symm
  have hsum : (∑ k : Fin 128, blkA V c t (ix2 p k) * blkW V c t (ix2 k q))
      = ∑ k : Fin 128, arrA V c (ix2 (⟨t.val * 5000 + p.val, hr⟩ : Fin 50000) k) * arrW V c (ix2 k q) :=
    Finset.sum_congr rfl fun k _ => by rw [blkA_at V c t p k ⟨t.val * 5000 + p.val, hr⟩ rfl, blkW_at V c t k q]
  rw [hsum, blkS_at V c t p ⟨t.val * 5000 + p.val, hr⟩ rfl, blkB_at V c t q]

/-- An index of the output array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28).slice (win0_4.rect t)).set ↔ _
  rw [View.set_slice_whole, Rect.mem_set_unit]
  exact Iff.rfl

/-- Every row of the output array is in some point's block: row `r` in point `r / 5000`'s, which writes back. -/
theorem cover (i : S50000x128.Idx) : ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY OF REGION 0 after its ten write-backs is layer one (kernel order) of the region's input arrays. -/
theorem final0 (c : Dev nD) :
    (dat0 V c).arrAt 4 cfg0.N = kerLayer1 (V c main_v26) (V c main_v14) (V c main_arg1) (V c main_v27) :=
  (dat0 V c).arrAt_eq_of_cover 4 _ (fun t _ => flushed_eq V c t) cover

end Cert.KernelIdeal.Region0

end
-- ==== Proof.Region1.lean ====
/-
  Region 1 (layer two), read as values: whatever the TensorCore's buffers hold when the region is entered, the
  region's output array ends holding layer two in the kernel's order — contract each row of the aggregated array
  with the weights, scale by the node's entry of the scale column, add the bias row — of the four arrays its
  input windows stage. Ten grid points, point t writing rows 5000·t … 5000·t + 4999 of the 64 columns.
-/
import proofs.«109816_j66271345377540_1_alg».proof.Proof.Gen.KernelIdeal.Frame
import proofs.«109816_j66271345377540_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.GraphConv

/-! ## The block's payload at an entry -/

/-- The zero offsets of a whole-block access, however spelt. -/
theorem hz : (![0, 0] : Fin 2 → Nat) = fun _ => 0 := funext fun a => by fin_cases a <;> rfl

/-- The contraction's left operand index keeps the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Its column is the contracted coordinate. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted coordinate. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Its column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's product into zeros at an entry: row `p` of the left block against column `q` of the right. -/
theorem matmul_at (l : FVec Ideal S5000x128 .bf16) (r : FVec Ideal S128x64 .bf16) (p : Fin 5000) (q : Fin 64) :
    (matmul (F := Ideal) dot_S5000x128_S128x64_S5000x64_1_0_0_1_n_n none l r (constant S5000x64 .f32 0x00000000#32)) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- A column broadcast along the rows' 64 entries reads, at `(p, q)`, the column's entry of row `p`. -/
theorem colBroadcast_at {α : Type} (v : S5000x1.Idx → α) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else q.val
    rw [if_pos rfl]

/-- THE PAYLOAD AT AN ENTRY: the row of the first block contracted with the column of the weights, times the row's
    scale, plus the bias row's entry. -/
theorem pay_at (x0 : Vec Ideal S5000x128 .f32) (x3 : Vec Ideal S128x64 .f32) (x6 : Vec Ideal S5000x1 .f32)
    (x10 : Vec Ideal S1x64 .f32) (p : Fin 5000) (q : Fin 64) :
    (k1_pay1 (F := Ideal) x0 x3 x6 x10) (ix2 p q)
      = (∑ k : Fin 128, x0 (ix2 p k) * x3 (ix2 k q)) * x6 (ix2 p (0 : Fin 1)) + x10 (ix2 (0 : Fin 1) q) := by
  unfold k1_pay1
  simp only [shapeCast_self]
  rw [addf_apply, mulf_apply, matmul_at, colBroadcast_at, broadcastTo_1b_ab_apply]
  rfl

/-! ## The region's arrays and blocks, named at their literal types -/

variable (V : (c : Dev nD) → (b : Ref sig .tc) → Buf (Elt Ideal) ((c : Thread nD τ).loc b))

/-- The aggregated array (50000 rows of 128), -/
abbrev aArr (c : Dev nD) : FVec Ideal S50000x128 .f32 := V c main_v40
/-- the scale column, -/
abbrev sArr (c : Dev nD) : FVec Ideal S50000x1 .f32 := V c main_v14
/-- the weights -/
abbrev wArr (c : Dev nD) : FVec Ideal S128x64 .f32 := V c main_arg3
/-- and the bias row, as the region finds them; -/
abbrev bArr (c : Dev nD) : FVec Ideal S1x64 .f32 := V c main_v41
/-- and what point `t` stages of each: 5000 rows of the aggregated array, -/
abbrev aBlk (c : Dev nD) (t : Fin cfg1.N) : Vec Ideal S5000x128 .f32 := iblk1 V c 0 t
/-- the same 5000 rows of the scale column, -/
abbrev sBlk (c : Dev nD) (t : Fin cfg1.N) : Vec Ideal S5000x1 .f32 := iblk1 V c 1 t
/-- all of the weights -/
abbrev wBlk (c : Dev nD) (t : Fin cfg1.N) : Vec Ideal S128x64 .f32 := iblk1 V c 2 t
/-- and all of the bias row. -/
abbrev bBlk (c : Dev nD) (t : Fin cfg1.N) : Vec Ideal S1x64 .f32 := iblk1 V c 3 t

/-! ## Where the blocks sit -/

/-- The blocks' index maps over the ten points: the row blocks of the aggregated array, of the scale column and of the
    output are the point's own, in column block 0; the weights and the bias row are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 10 :=
  (by decide +kernel : ∀ t : Fin grid1.N, _)

/-- Every row block of the output is some point's. -/
theorem idx_onto : ∀ r : Fin 10, ∃ t : Fin cfg1.N, t.val = r.val :=
  (by decide +kernel : ∀ r : Fin 10, ∃ t : Fin grid1.N, t.val = r.val)

/-- Row `p` of point `t`'s block of the aggregated array is row `5000·t + p` of the array. -/
theorem aBlk_at (c : Dev nD) (t : Fin cfg1.N) (p : Fin 5000) (k : Fin 128) (r : Fin 50000) (hr : r.val = t.val * 5000 + p.val) :
    aBlk V c t (ix2 p k) = aArr V c (ix2 r k) := by
  obtain ⟨e00, e01, -⟩ := idx_facts t
  show V c main_v40 (((cfg1.win 0).blk t).view.emb (ix2 p k)) = V c main_v40 (ix2 r k)
  refine congrArg (V c main_v40) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same of the scale column. -/
theorem sBlk_at (c : Dev nD) (t : Fin cfg1.N) (p : Fin 5000) (r : Fin 50000) (hr : r.val = t.val * 5000 + p.val) :
    sBlk V c t (ix2 p (0 : Fin 1)) = sArr V c (ix2 r (0 : Fin 1)) := by
  obtain ⟨-, -, e10, e11, -⟩ := idx_facts t
  show V c main_v14 (((cfg1.win 1).blk t).view.emb (ix2 p (0 : Fin 1))) = V c main_v14 (ix2 r (0 : Fin 1))
  refine congrArg (V c main_v14) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- Every point stages the whole of the weights -/
theorem wBlk_at (c : Dev nD) (t : Fin cfg1.N) (k : Fin 128) (q : Fin 64) :
    wBlk V c t (ix2 k q) = wArr V c (ix2 k q) := by
  obtain ⟨-, -, -, -, e20, e21, -⟩ := idx_facts t
  show V c main_arg3 (((cfg1.win 2).blk t).view.emb (ix2 k q)) = V c main_arg3 (ix2 k q)
  refine congrArg (V c main_arg3) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- and the whole of the bias row. -/
theorem bBlk_at (c : Dev nD) (t : Fin cfg1.N) (q : Fin 64) :
    bBlk V c t (ix2 (0 : Fin 1) q) = bArr V c (ix2 (0 : Fin 1) q) := by
  obtain ⟨-, -, -, -, -, -, e30, e31, -⟩ := idx_facts t
  show V c main_v41 (((cfg1.win 3).blk t).view.emb (ix2 (0 : Fin 1) q)) = V c main_v41 (ix2 (0 : Fin 1) q)
  refine congrArg (V c main_v41) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- Layer two at an entry whose row and column are known. -/
theorem kerLayer2_at (A : FVec Ideal S50000x128 .f32) (s : FVec Ideal S50000x1 .f32) (W : FVec Ideal S128x64 .f32) (b : FVec Ideal S1x64 .f32)
    (i : S50000x64.Idx) (r : Fin 50000) (q : Fin 64) (hr : (i 0).val = r.val) (hq : (i 1).val = q.val) :
    kerLayer2 A s W b i = (∑ k : Fin 128, A (ix2 r k) * W (ix2 k q)) * s (ix2 r (0 : Fin 1)) + b (ix2 (0 : Fin 1) q) := by
  have e0 : (⟨(i 0).val, (i 0).isLt⟩ : Fin 50000) = r := Fin.ext hr
  have e1 : (⟨(i 1).val, (i 1).isLt⟩ : Fin 64) = q := Fin.ext hq
  unfold kerLayer2
  rw [e0, e1]

/-! ## What a point writes back, and the array after the ten write-backs -/

/-- WHAT POINT `t` WRITES BACK is block `t` of layer two of the region's input arrays. -/
theorem flushed_eq (c : Dev nD) (t : Fin cfg1.N) :
    (dat1 V c).flushed 4 t = ((cfg1.win 4).blk t).view.read (Elt Ideal) (kerLayer2 (V c main_v40) (V c main_v14) (V c main_arg3) (V c main_v41)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x64) hz, View.ld_unit_zero (S := S5000x1) hz,
    View.ld_unit_zero (S := S1x64) hz]
  obtain ⟨-, -, -, -, -, -, -, -, e40, e41, ht⟩ := idx_facts t
  funext j
  obtain ⟨p, q, rfl⟩ : ∃ (p : Fin 5000) (q : Fin 64), j = ix2 p q := ⟨j 0, j 1, eq_ix2 j⟩
  have hp : p.val < 5000 := p.isLt
  have h0 : ((((cfg1.win 4).blk t).view.emb (ix2 p q)) 0).val = t.val * 5000 + p.val := by
    show win1_4.index t (0 : Fin 2) * 5000 + 1 * p.val = _; omega
  have h1 : ((((cfg1.win 4).blk t).view.emb (ix2 p q)) 1).val = q.val := by
    show win1_4.index t (1 : Fin 2) * 64 + 1 * q.val = _; omega
  refine Eq.trans ?_ (kerLayer2_at (aArr V c) (sArr V c) (wArr V c) (bArr V c) (((cfg1.win 4).blk t).view.emb (ix2 p q))
    (⟨t.val * 5000 + p.val, by omega⟩ : Fin 50000) q h0 h1).symm
  refine (pay_at (aBlk V c t) (wBlk V c t) (sBlk V c t) (bBlk V c t) p q).trans ?_
  rw [sBlk_at V c t p ⟨t.val * 5000 + p.val, by omega⟩ rfl, bBlk_at V c t q]
  refine congrArg (fun x => x * sArr V c (ix2 (⟨t.val * 5000 + p.val, by omega⟩ : Fin 50000) (0 : Fin 1)) + bArr V c (ix2 (0 : Fin 1) q)) ?_
  exact Finset.sum_congr rfl fun k _ => by rw [aBlk_at V c t p k ⟨t.val * 5000 + p.val, by omega⟩ rfl, wBlk_at V c t k q]

/-- An index of the output array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v42).slice (win1_4.rect t)).set ↔ _
  rw [View.set_slice_whole, Rect.mem_set_unit]
  exact Iff.rfl

/-- Row `r` of the output is written by point `r / 5000`: the ten blocks cover the array. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, e40, e41, -⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY OF REGION 1 after its ten write-backs is layer two (kernel order) of the region's input arrays. -/
theorem final1 (c : Dev nD) :
    (dat1 V c).arrAt 4 cfg1.N = kerLayer2 (V c main_v40) (V c main_v14) (V c main_arg3) (V c main_v41) :=
  (dat1 V c).arrAt_eq_of_cover 4 _ (fun t _ => flushed_eq V c t) cover

end Cert.KernelIdeal.Region1

end
-- ==== Proof.HostRead.lean ====
/-
  The host operations around the two regions, read as values. Before region 0 the host computes the two degree
  scales, the first aggregation and the bias as a row; between the regions the second aggregation, from region 0's
  output, and the second bias row. Each buffer a region stages is named here as a function of the launch memory
  (and, for the second aggregation, of region 0's output array), with the degree scale and the aggregation kept as
  the two named functions of Spec.lean.
-/
import proofs.«109816_j66271345377540_1_alg».proof.Proof.Gen.KernelIdeal.Frame
import proofs.«109816_j66271345377540_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HostRead

open Cert.KernelIdeal Cert.KernelIdeal.Gen Cert.GraphConv

variable (m : (ℓ : Loc nD τ sig) → Buf (Elt Ideal) ℓ) (ρ : Dev nD → PrngReg)

/-- A buffer no operation of a stretch writes keeps its contents across the stretch. -/
local macro "skip_stretch" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The arguments, read at the boundaries a later stretch takes them from: no host operation writes one -/

/-- The destinations when the second count begins. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by skip_stretch hostOps0_1
    _ = W0 m ρ c (Proc.devRef .tc main_arg6) := by skip_stretch hostOps0
    _ = m ((c : Thread nD τ).loc main_arg6) := rfl

/-- An argument no host operation writes holds its launch contents when the last stretch before region 0 begins. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by skip_stretch hostOps0_3
    _ = W2 m ρ c (Proc.devRef .tc main_arg0) := by skip_stretch hostOps0_2
    _ = W1 m ρ c (Proc.devRef .tc main_arg0) := by skip_stretch hostOps0_1
    _ = W0 m ρ c (Proc.devRef .tc main_arg0) := by skip_stretch hostOps0
    _ = m ((c : Thread nD τ).loc main_arg0) := rfl
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by skip_stretch hostOps0_3
    _ = W2 m ρ c (Proc.devRef .tc main_arg1) := by skip_stretch hostOps0_2
    _ = W1 m ρ c (Proc.devRef .tc main_arg1) := by skip_stretch hostOps0_1
    _ = W0 m ρ c (Proc.devRef .tc main_arg1) := by skip_stretch hostOps0
    _ = m ((c : Thread nD τ).loc main_arg1) := rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by skip_stretch hostOps0_3
    _ = W2 m ρ c (Proc.devRef .tc main_arg2) := by skip_stretch hostOps0_2
    _ = W1 m ρ c (Proc.devRef .tc main_arg2) := by skip_stretch hostOps0_1
    _ = W0 m ρ c (Proc.devRef .tc main_arg2) := by skip_stretch hostOps0
    _ = m ((c : Thread nD τ).loc main_arg2) := rfl
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by skip_stretch hostOps0_3
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0
    _ = m ((c : Thread nD τ).loc main_arg3) := rfl
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by skip_stretch hostOps0_3
    _ = W2 m ρ c (Proc.devRef .tc main_arg4) := by skip_stretch hostOps0_2
    _ = W1 m ρ c (Proc.devRef .tc main_arg4) := by skip_stretch hostOps0_1
    _ = W0 m ρ c (Proc.devRef .tc main_arg4) := by skip_stretch hostOps0
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by skip_stretch hostOps0_3
    _ = W2 m ρ c (Proc.devRef .tc main_arg5) := by skip_stretch hostOps0_2
    _ = W1 m ρ c (Proc.devRef .tc main_arg5) := by skip_stretch hostOps0_1
    _ = W0 m ρ c (Proc.devRef .tc main_arg5) := by skip_stretch hostOps0
    _ = m ((c : Thread nD τ).loc main_arg5) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by skip_stretch hostOps0_3
    _ = W2 m ρ c (Proc.devRef .tc main_arg6) := by skip_stretch hostOps0_2
    _ = m ((c : Thread nD τ).loc main_arg6) := W2_arg6 m ρ c

/-- The last stretch before region 0 writes no argument either. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by skip_stretch hostOps0_4
    _ = m ((c : Thread nD τ).loc main_arg1) := W4_arg1 m ρ c
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by skip_stretch hostOps0_4
    _ = m ((c : Thread nD τ).loc main_arg3) := W4_arg3 m ρ c
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by skip_stretch hostOps0_4
    _ = m ((c : Thread nD τ).loc main_arg4) := W4_arg4 m ρ c
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by skip_stretch hostOps0_4
    _ = m ((c : Thread nD τ).loc main_arg5) := W4_arg5 m ρ c
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by skip_stretch hostOps0_4
    _ = m ((c : Thread nD τ).loc main_arg6) := W4_arg6 m ρ c

/-! ## The pieces of the degree scale, and each stretch read over ANY contents before it -/

/-- The vector of ones, one per edge. -/
def onesVec : FVec Ideal S800000 .f32 :=
  broadcastInDim S800000 ![] bcast_S_S800000 (constant (F := Ideal) S_ .f32 0x3F800000#32)

/-- The updates `u` added into zeros at the entries of an index vector. -/
def countOf (idx : IVec S800000 32) (u : FVec Ideal S800000 .f32) : FVec Ideal S50000 .f32 :=
  Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 idx) u

/-- A count clipped below at a scalar (the scalar passed through the call's identity conversion). -/
def clipOf (one : FVec Ideal S_ .f32) (cnt : FVec Ideal S50000 .f32) : FVec Ideal S50000 .f32 :=
  maximumf (broadcastInDim S50000 ![] bcast_S_S50000 (id one)) cnt

/-- A clipped count raised to -1/2, as a column. -/
def scaleOf (clip : FVec Ideal S50000 .f32) : FVec Ideal S50000x1 .f32 :=
  broadcastInDim S50000x1 ![0] bcast_S50000_S50000x1_0 (Host.powf (F := Ideal) clip (broadcastInDim S50000 ![] bcast_S_S50000 (constant (F := Ideal) S_ .f32 0xBF000000#32)))

/-- The degree scale is these three composed, at the ones vector and the scalar one. -/
theorem degScale_eq (idx : IVec S800000 32) : degScale (F := Ideal) idx
    = scaleOf (clipOf (constant (F := Ideal) S_ .f32 0x3F800000#32) (countOf idx onesVec)) := by
  unfold degScale scaleOf clipOf countOf onesVec
  rfl

/-- The first stretch: the source count, the ones vector, the scalar one. -/
theorem after0_count (V : Valuation τ sig (Elt Ideal)) : StableHlo.after (hostOps0 (F := Ideal)) V (Proc.devRef .tc main_v3)
    = countOf (V (Proc.devRef .tc main_arg5)) onesVec := by
  unfold countOf onesVec
  after_results
theorem after0_ones (V : Valuation τ sig (Elt Ideal)) : StableHlo.after (hostOps0 (F := Ideal)) V (Proc.devRef .tc main_v0) = onesVec := by
  unfold onesVec
  after_results
theorem after0_one (V : Valuation τ sig (Elt Ideal)) : StableHlo.after (hostOps0 (F := Ideal)) V (Proc.devRef .tc main_cst_1)
    = constant (F := Ideal) S_ .f32 0x3F800000#32 := by
  after_results

/-- The first clip call: the count it finds, clipped below at the scalar it finds. -/
theorem after01_clip (V : Valuation τ sig (Elt Ideal)) : StableHlo.after (hostOps0_1 (F := Ideal)) V (Proc.devRef .tc main_v4)
    = clipOf (V (Proc.devRef .tc main_cst_1)) (V (Proc.devRef .tc main_v3)) := by
  unfold clipOf
  after_results
  rfl

/-- The third stretch: the destination count over the ones vector it finds, and the scalar one again. -/
theorem after02_count (V : Valuation τ sig (Elt Ideal)) : StableHlo.after (hostOps0_2 (F := Ideal)) V (Proc.devRef .tc main_v7)
    = countOf (V (Proc.devRef .tc main_arg6)) (V (Proc.devRef .tc main_v0)) := by
  unfold countOf
  after_results
theorem after02_one (V : Valuation τ sig (Elt Ideal)) : StableHlo.after (hostOps0_2 (F := Ideal)) V (Proc.devRef .tc main_cst_3)
    = constant (F := Ideal) S_ .f32 0x3F800000#32 := by
  after_results

/-- The second clip call. -/
theorem after03_clip (V : Valuation τ sig (Elt Ideal)) : StableHlo.after (hostOps0_3 (F := Ideal)) V (Proc.devRef .tc main_v8)
    = clipOf (V (Proc.devRef .tc main_cst_3)) (V (Proc.devRef .tc main_v7)) := by
  unfold clipOf
  after_results
  rfl

/-- The last stretch before region 0: the two scale columns from the two clipped counts it finds, ... -/
theorem after04_oscale (V : Valuation τ sig (Elt Ideal)) : StableHlo.after (hostOps0_4 (F := Ideal)) V (Proc.devRef .tc main_v11)
    = scaleOf (V (Proc.devRef .tc main_v4)) := by
  unfold scaleOf
  after_results_simp
theorem after04_iscale (V : Valuation τ sig (Elt Ideal)) : StableHlo.after (hostOps0_4 (F := Ideal)) V (Proc.devRef .tc main_v14)
    = scaleOf (V (Proc.devRef .tc main_v8)) := by
  unfold scaleOf
  after_results_simp
/-- ... the aggregation of the features it finds, scaled by the source column, along the edges it finds, ... -/
theorem after04_agg (V : Valuation τ sig (Elt Ideal)) : StableHlo.after (hostOps0_4 (F := Ideal)) V (Proc.devRef .tc main_v26)
    = aggregate (F := Ideal) (V (Proc.devRef .tc main_arg0)) (scaleOf (V (Proc.devRef .tc main_v4))) (V (Proc.devRef .tc main_arg5)) (V (Proc.devRef .tc main_arg6)) := by
  unfold aggregate scaleOf
  after_results_simp
/-- ... and the bias vector recast as a row. -/
theorem after04_b1 (V : Valuation τ sig (Elt Ideal)) : StableHlo.after (hostOps0_4 (F := Ideal)) V (Proc.devRef .tc main_v27)
    = fun i => shapeCast S1x128 (V (Proc.devRef .tc main_arg2)) shapeCasts_S128_S1x128 i := by
  after_results_simp
  rfl

/-! ## The boundaries' contents, one stretch per step -/

theorem W1_count (c : Dev nD) : W1 m ρ c (Proc.devRef .tc main_v3) = countOf (m ((c : Thread nD τ).loc main_arg5)) onesVec :=
  after0_count (W0 m ρ c)
theorem W1_ones (c : Dev nD) : W1 m ρ c (Proc.devRef .tc main_v0) = onesVec :=
  after0_ones (W0 m ρ c)
theorem W1_one (c : Dev nD) : W1 m ρ c (Proc.devRef .tc main_cst_1) = constant (F := Ideal) S_ .f32 0x3F800000#32 :=
  after0_one (W0 m ρ c)

/-- After the first clip call: the clipped source count. -/
theorem W2_clip (c : Dev nD) : W2 m ρ c (Proc.devRef .tc main_v4)
    = clipOf (constant (F := Ideal) S_ .f32 0x3F800000#32) (countOf (m ((c : Thread nD τ).loc main_arg5)) onesVec) :=
  (after01_clip (W1 m ρ c)).trans (congrArg₂ clipOf (W1_one m ρ c) (W1_count m ρ c))
/-- The ones vector is still there when the second count begins. -/
theorem W2_ones (c : Dev nD) : W2 m ρ c (Proc.devRef .tc main_v0) = onesVec :=
  calc W2 m ρ c (Proc.devRef .tc main_v0)
    _ = W1 m ρ c (Proc.devRef .tc main_v0) := by skip_stretch hostOps0_1
    _ = onesVec := W1_ones m ρ c

theorem W3_count (c : Dev nD) : W3 m ρ c (Proc.devRef .tc main_v7) = countOf (m ((c : Thread nD τ).loc main_arg6)) onesVec :=
  (after02_count (W2 m ρ c)).trans (congrArg₂ countOf (W2_arg6 m ρ c) (W2_ones m ρ c))
theorem W3_one (c : Dev nD) : W3 m ρ c (Proc.devRef .tc main_cst_3) = constant (F := Ideal) S_ .f32 0x3F800000#32 :=
  after02_one (W2 m ρ c)

/-- After the second clip call: the clipped destination count, the clipped source count untouched beside it. -/
theorem W4_iclip (c : Dev nD) : W4 m ρ c (Proc.devRef .tc main_v8)
    = clipOf (constant (F := Ideal) S_ .f32 0x3F800000#32) (countOf (m ((c : Thread nD τ).loc main_arg6)) onesVec) :=
  (after03_clip (W3 m ρ c)).trans (congrArg₂ clipOf (W3_one m ρ c) (W3_count m ρ c))
theorem W4_oclip (c : Dev nD) : W4 m ρ c (Proc.devRef .tc main_v4)
    = clipOf (constant (F := Ideal) S_ .f32 0x3F800000#32) (countOf (m ((c : Thread nD τ).loc main_arg5)) onesVec) :=
  calc W4 m ρ c (Proc.devRef .tc main_v4)
    _ = W3 m ρ c (Proc.devRef .tc main_v4) := by skip_stretch hostOps0_3
    _ = W2 m ρ c (Proc.devRef .tc main_v4) := by skip_stretch hostOps0_2
    _ = _ := W2_clip m ρ c

/-- The aggregation takes equal arguments to equal values. -/
theorem aggregate_congr {h h' : FVec Ideal S50000x128 .f32} {os os' : FVec Ideal S50000x1 .f32} {src src' dst dst' : IVec S800000 32}
    (e1 : h = h') (e2 : os = os') (e3 : src = src') (e4 : dst = dst') :
    aggregate (F := Ideal) h os src dst = aggregate (F := Ideal) h' os' src' dst' := by
  subst e1 e2 e3 e4; rfl

/-! ## At region 0's entry -/

/-- The source-degree scale column at region 0's entry (region 1's host stretch reads it again). -/
theorem W5_oscale (c : Dev nD) : W5 m ρ c (Proc.devRef .tc main_v11) = degScale (F := Ideal) (m ((c : Thread nD τ).loc main_arg5)) :=
  (after04_oscale (W4 m ρ c)).trans ((congrArg scaleOf (W4_oclip m ρ c)).trans (degScale_eq _).symm)

/-- Region 0's first input: the aggregation of the node features scaled by the source-degree scale. -/
theorem V5_agg (c : Dev nD) : V5 m ρ c main_v26
    = aggregate (F := Ideal) (m ((c : Thread nD τ).loc main_arg0)) (degScale (F := Ideal) (m ((c : Thread nD τ).loc main_arg5))) (m ((c : Thread nD τ).loc main_arg5)) (m ((c : Thread nD τ).loc main_arg6)) :=
  (after04_agg (W4 m ρ c)).trans
    (aggregate_congr (W4_arg0 m ρ c) ((congrArg scaleOf (W4_oclip m ρ c)).trans (degScale_eq _).symm) (W4_arg5 m ρ c) (W4_arg6 m ρ c))

/-- Region 0's scale column: the destination-degree scale. -/
theorem V5_scale (c : Dev nD) : V5 m ρ c main_v14 = degScale (F := Ideal) (m ((c : Thread nD τ).loc main_arg6)) :=
  (after04_iscale (W4 m ρ c)).trans ((congrArg scaleOf (W4_iclip m ρ c)).trans (degScale_eq _).symm)

/-- Region 0's weights are the argument as launched. -/
theorem V5_W1 (c : Dev nD) : V5 m ρ c main_arg1 = m ((c : Thread nD τ).loc main_arg1) :=
  W5_arg1 m ρ c

/-- Region 0's bias row holds the bias vector. -/
theorem V5_b1 (c : Dev nD) (q : Fin 128) :
    (V5 m ρ c main_v27 : S1x128.Idx → EReal) (ix2 (0 : Fin 1) q) = (m ((c : Thread nD τ).loc main_arg2) : S128.Idx → EReal) (ix1 q) := by
  have h : (W5 m ρ c (Proc.devRef .tc main_v27) : S1x128.Idx → EReal)
      = fun i => shapeCast S1x128 (W4 m ρ c (Proc.devRef .tc main_arg2) : S128.Idx → EReal) shapeCasts_S128_S1x128 i :=
    after04_b1 (W4 m ρ c)
  have h2 : (W4 m ρ c (Proc.devRef .tc main_arg2) : S128.Idx → EReal) = m ((c : Thread nD τ).loc main_arg2) := W4_arg2 m ρ c
  calc (V5 m ρ c main_v27 : S1x128.Idx → EReal) (ix2 (0 : Fin 1) q)
    _ = shapeCast S1x128 (W4 m ρ c (Proc.devRef .tc main_arg2) : S128.Idx → EReal) shapeCasts_S128_S1x128 (ix2 (0 : Fin 1) q) := congrFun h _
    _ = (W4 m ρ c (Proc.devRef .tc main_arg2) : S128.Idx → EReal) (ix1 q) := shapeCast_a_1a_apply (a := 128) _ _ 0 q
    _ = (m ((c : Thread nD τ).loc main_arg2) : S128.Idx → EReal) (ix1 q) := congrFun h2 _

/-! ## At region 1's entry -/

/-- The stretch between the regions, over ANY contents before it: the aggregation of what it finds in region 0's
    output array, scaled by the source column it finds, along the edges it finds, ... -/
theorem after1_agg (V : Valuation τ sig (Elt Ideal)) : StableHlo.after (hostOps1 (F := Ideal)) V (Proc.devRef .tc main_v40)
    = aggregate (F := Ideal) (V (Proc.devRef .tc main_v28)) (V (Proc.devRef .tc main_v11))
        (V (Proc.devRef .tc main_arg5)) (V (Proc.devRef .tc main_arg6)) := by
  unfold aggregate
  after_results_simp
/-- ... and the second bias vector recast as a row. -/
theorem after1_b2 (V : Valuation τ sig (Elt Ideal)) : StableHlo.after (hostOps1 (F := Ideal)) V (Proc.devRef .tc main_v41)
    = fun i => shapeCast S1x64 (V (Proc.devRef .tc main_arg4)) shapeCasts_S64_S1x64 i := by
  after_results_simp
  rfl

/-- What region 0 leaves of the buffers the stretch between the regions reads: the source scale column and the
    arguments are none of region 0's arrays, so they are as at its entry. -/
theorem W6_oscale (c : Dev nD) : W6 m ρ c (Proc.devRef .tc main_v11) = degScale (F := Ideal) (m ((c : Thread nD τ).loc main_arg5)) :=
  (W6_of_ne m ρ c main_v11 (by decide)).trans (W5_oscale m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)

/-- Region 1's first input: the aggregation of region 0's output array scaled by the source-degree scale. -/
theorem V7_agg (c : Dev nD) : V7 m ρ c main_v40
    = aggregate (F := Ideal) ((dat0 (V5 m ρ) c).arrAt 4 cfg0.N) (degScale (F := Ideal) (m ((c : Thread nD τ).loc main_arg5))) (m ((c : Thread nD τ).loc main_arg5)) (m ((c : Thread nD τ).loc main_arg6)) :=
  (after1_agg (W6 m ρ c)).trans
    (aggregate_congr (W6_arr m ρ c 4) (W6_oscale m ρ c) (W6_arg5 m ρ c) (W6_arg6 m ρ c))

/-- Region 1's scale column: the destination-degree scale again. The column is one of region 0's INPUT arrays
    (its window 1), which the pipeline leaves as it was entered; the stretch between the regions does not write it. -/
theorem V7_scale (c : Dev nD) : V7 m ρ c main_v14 = degScale (F := Ideal) (m ((c : Thread nD τ).loc main_arg6)) :=
  calc W7 m ρ c (Proc.devRef .tc main_v14)
    _ = W6 m ρ c (Proc.devRef .tc main_v14) := by skip_stretch hostOps1
    _ = W5 m ρ c (Proc.devRef .tc main_v14) := (W6_arr m ρ c 1).trans (((dat0 (V5 m ρ) c).arrAt_in 1 rfl _).trans (A_eq0 (V5 m ρ) c 1))
    _ = degScale (F := Ideal) (m ((c : Thread nD τ).loc main_arg6)) := V5_scale m ρ c

/-- Region 1's weights are the argument as launched. -/
theorem V7_W2 (c : Dev nD) : V7 m ρ c main_arg3 = m ((c : Thread nD τ).loc main_arg3) :=
  calc W7 m ρ c (Proc.devRef .tc main_arg3)
    _ = W6 m ρ c (Proc.devRef .tc main_arg3) := by skip_stretch hostOps1
    _ = m ((c : Thread nD τ).loc main_arg3) := W6_arg3 m ρ c

/-- Region 1's bias row holds the second bias vector. -/
theorem V7_b2 (c : Dev nD) (q : Fin 64) :
    (V7 m ρ c main_v41 : S1x64.Idx → EReal) (ix2 (0 : Fin 1) q) = (m ((c : Thread nD τ).loc main_arg4) : S64.Idx → EReal) (ix1 q) := by
  have h : (W7 m ρ c (Proc.devRef .tc main_v41) : S1x64.Idx → EReal)
      = fun i => shapeCast S1x64 (W6 m ρ c (Proc.devRef .tc main_arg4) : S64.Idx → EReal) shapeCasts_S64_S1x64 i :=
    after1_b2 (W6 m ρ c)
  have h2 : (W6 m ρ c (Proc.devRef .tc main_arg4) : S64.Idx → EReal) = m ((c : Thread nD τ).loc main_arg4) := W6_arg4 m ρ c
  calc (V7 m ρ c main_v41 : S1x64.Idx → EReal) (ix2 (0 : Fin 1) q)
    _ = shapeCast S1x64 (W6 m ρ c (Proc.devRef .tc main_arg4) : S64.Idx → EReal) shapeCasts_S64_S1x64 (ix2 (0 : Fin 1) q) := congrFun h _
    _ = (W6 m ρ c (Proc.devRef .tc main_arg4) : S64.Idx → EReal) (ix1 q) := shapeCast_a_1a_apply (a := 64) _ _ 0 q
    _ = (m ((c : Thread nD τ).loc main_arg4) : S64.Idx → EReal) (ix1 q) := congrFun h2 _

end Cert.KernelIdeal.HostRead

end
-- ==== Proof.KernelValue.lean ====
/-
  The kernel program's result as one function of its arguments: the last boundary's contents at the result buffer
  are region 1's output array, which is layer two of (the aggregation of region 0's output array, which is layer
  one of the aggregation of the node features) — `kerOut` of the launch memory's argument arrays.
-/
import proofs.«109816_j66271345377540_1_alg».proof.Proof.Gen.KernelIdeal.Frame
import proofs.«109816_j66271345377540_1_alg».proof.Proof.Spec
import proofs.«109816_j66271345377540_1_alg».proof.Proof.KernelRun
import proofs.«109816_j66271345377540_1_alg».proof.Proof.Region0
import proofs.«109816_j66271345377540_1_alg».proof.Proof.Region1
import proofs.«109816_j66271345377540_1_alg».proof.Proof.HostRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.GraphConv

open Cert.KernelIdeal.Region0 Cert.KernelIdeal.Region1 Cert.KernelIdeal.HostRead

variable (m : (ℓ : Loc nD τ sig) → Buf (Elt Ideal) ℓ) (ρ : Dev nD → PrngReg)

/-- The result buffer at the last boundary is `kerOut` of the arguments (the bias rows as the host made them). -/
theorem out_value (c : Dev nD) : W8 m ρ c (Proc.devRef .tc main_v42)
    = kerOut (m ((c : Thread nD τ).loc main_arg0)) (m ((c : Thread nD τ).loc main_arg1)) (V5 m ρ c main_v27)
        (m ((c : Thread nD τ).loc main_arg3)) (V7 m ρ c main_v41) (m ((c : Thread nD τ).loc main_arg5)) (m ((c : Thread nD τ).loc main_arg6)) := by
  have h8 : W8 m ρ c (Proc.devRef .tc main_v42) = (dat1 (V7 m ρ) c).arrAt 4 cfg1.N := W8_arr m ρ c 4
  rw [h8, final1 (V7 m ρ) c, V7_agg, V7_scale, V7_W2, final0 (V5 m ρ) c, V5_agg, V5_scale, V5_W1]
  rfl

/-- THE KERNEL PROGRAM'S RUN, READ: every weakly fair execution terminates with the result array at `kerOut` of
    the arguments and the arguments unchanged. -/
theorem run_value : θ_run defs (onTc (τ := τ) (main (F := Ideal))) ⟨m, fun _ => 0, ρ⟩ (fun r => ∀ c : Dev nD,
      r.2.mem ((c.tc : Thread nD τ).loc main_v42)
        = kerOut (m ((c : Thread nD τ).loc main_arg0)) (m ((c : Thread nD τ).loc main_arg1)) (V5 m ρ c main_v27)
            (m ((c : Thread nD τ).loc main_arg3)) (V7 m ρ c main_v41) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out_value m ρ c), (h c).2⟩) (run_named (F := Ideal) m ρ)

end Cert.KernelIdeal.Hand

end
-- ==== Proof.RefSpec.lean ====
/-
  The reference program's result as one function of its arguments. Its run ends with the result buffer at the
  composed term of its 97 host operations; that term is, read from the outside in, layer two (reference order) of
  the aggregation of layer one of the aggregation of the node features, each with the degree scales recomputed in
  place: `refOut` of the argument arrays, by unfolding the names.
-/
import proofs.«109816_j66271345377540_1_alg».proof.Defs
import proofs.«109816_j66271345377540_1_alg».proof.Proof.Gen.ReferenceIdeal.Run
import proofs.«109816_j66271345377540_1_alg».proof.Proof.Spec

set_option maxRecDepth 16384

noncomputable section

open Idealize.ShloMosaic Idealize.ShloMosaic.TcCoe Idealize.SL.Sem

namespace Cert.ReferenceIdeal.RefValue

open Cert.ReferenceIdeal Cert.ReferenceIdeal.Value Cert.GraphConv

variable (m : (ℓ : Loc nD τ sig) → Buf (Elt Ideal) ℓ)

/-- The run's result term is `refOut` of the argument arrays. -/
theorem res_eq (c : Dev nD) : res_main_v66 (F := Ideal) m c
    = refOut (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  unfold res_main_v66 refOut refLayer2 refLayer1 aggregateR degScaleR
  rfl

end Cert.ReferenceIdeal.RefValue

end
-- ==== Proof.lean ====
/-
  The certificate of a two-layer graph convolution (50000 nodes, 800000 edges, 128 → 128 → 64 features): a Pallas
  program whose two kernel regions each compute  (A · W) scaled row-wise by the destination-degree scale, plus the
  bias  (layer one clamped below at zero), against a jnp reference that scales the rows of A first and contracts
  afterwards. Everything else — the degree counts, the scales (max(1, degree))^(-1/2), the gather along the edges'
  sources and the scatter-add at their destinations — is the same host computation in both programs.

  The three frames: the word-level and the idealized kernel program by their generated frame certificates, the
  reference by its generated run. `preserves`: the idealization rewrote nothing. `algebraic`: the kernel program's
  run is read as values (KernelRun, Region0, Region1, HostRead, KernelValue: the result array is `kerOut` of the
  arguments), the reference's likewise (RefSpec: `refOut`), and the two are one function (Spec, over LibDistribNonnegFactor): a product
  distributes over a finite sum of extended reals when the common factor is a non-negative real, which the degree
  scale is at every node whatever the edge lists hold. No finiteness of the inputs is used.
-/
import proofs.«109816_j66271345377540_1_alg».proof.Defs
import proofs.«109816_j66271345377540_1_alg».proof.Proof.Gen.Kernel
import proofs.«109816_j66271345377540_1_alg».proof.Proof.Gen.Kernel.Frame
import proofs.«109816_j66271345377540_1_alg».proof.Proof.Gen.KernelIdeal
import proofs.«109816_j66271345377540_1_alg».proof.Proof.Gen.KernelIdeal.Frame
import proofs.«109816_j66271345377540_1_alg».proof.Proof.Gen.ReferenceIdeal
import proofs.«109816_j66271345377540_1_alg».proof.Proof.Gen.ReferenceIdeal.Run
import proofs.«109816_j66271345377540_1_alg».proof.Proof.Gen.Pre_finite_inputs
import proofs.«109816_j66271345377540_1_alg».proof.Proof.KernelValue
import proofs.«109816_j66271345377540_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at one function of them. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨e0, e1, e2, e3, e4, e5, e6⟩ := hagree c
  rw [e0, e1, e2, e3, e4, e5, e6]
  exact (Cert.GraphConv.out_eq _ _ _ _ _ _ _ _ _
    (Cert.KernelIdeal.HostRead.V5_b1 m ρ c) (Cert.KernelIdeal.HostRead.V7_b2 m ρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
